-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1000000x2 : Shape := ⟨2, ![1000000, 2]⟩
abbrev S600000x3 : Shape := ⟨2, ![600000, 3]⟩
abbrev S64x64 : Shape := ⟨2, ![64, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S1000000x64 .f32) (main_arg1 : IVec S1000000x2 32) (main_arg2 : IVec S600000x3 32) (main_arg3 : FVec F S64x64 .f32) (main_arg4 : FVec F S64x64 .f32) (main_arg5 : FVec F S64x64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S1000000x64 : Shape := ⟨2, ![1000000, 64]⟩
abbrev S1000000x2 : Shape := ⟨2, ![1000000, 2]⟩
abbrev S600000x3 : Shape := ⟨2, ![600000, 3]⟩
abbrev S64x64 : Shape := ⟨2, ![64, 64]⟩
abbrev S1000000x1 : Shape := ⟨2, ![1000000, 1]⟩
abbrev S1000000 : Shape := ⟨1, ![1000000]⟩
abbrev S600000x1 : Shape := ⟨2, ![600000, 1]⟩
abbrev S600000 : Shape := ⟨1, ![600000]⟩
abbrev S_ : Shape := ⟨0, ![]⟩
abbrev S500000x64 : Shape := ⟨2, ![500000, 64]⟩
abbrev S600000x64 : Shape := ⟨2, ![600000, 64]⟩
abbrev S8000x64 : Shape := ⟨2, ![8000, 64]⟩

abbrev nBuf : Space → Nat
  | .hbm => 116
  | .vmem => 11
  | .smem => 0
  | _ => 0

abbrev bufTy : (tb : Table) → Fin (tcTables nBuf tb) → BufTy
  | .hbm, ⟨0, _⟩ => ⟨S1000000x64, .f32⟩
  | .hbm, ⟨1, _⟩ => ⟨S1000000x2, .i32⟩
  | .hbm, ⟨2, _⟩ => ⟨S600000x3, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S1000000x1, .i32⟩
  | .hbm, ⟨7, _⟩ => ⟨S1000000, .i32⟩
  | .hbm, ⟨8, _⟩ => ⟨S1000000x1, .i32⟩
  | .hbm, ⟨9, _⟩ => ⟨S1000000, .i32⟩
  | .hbm, ⟨10, _⟩ => ⟨S600000x1, .i32⟩
  | .hbm, ⟨11, _⟩ => ⟨S600000, .i32⟩
  | .hbm, ⟨12, _⟩ => ⟨S600000x1, .i32⟩
  | .hbm, ⟨13, _⟩ => ⟨S600000, .i32⟩
  | .hbm, ⟨14, _⟩ => ⟨S600000x1, .i32⟩
  | .hbm, ⟨15, _⟩ => ⟨S600000, .i32⟩
  | .hbm, ⟨16, _⟩ => ⟨S_, .f32⟩
  | .hbm, ⟨17, _⟩ => ⟨S500000x64, .f32⟩
  | .hbm, ⟨18, _⟩ => ⟨S1000000x64, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S500000x64, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S500000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S1000000x64, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x64, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x64, .f32⟩
  | .hbm, ⟨74, _⟩ => ⟨S600000x64, .f32⟩
  | .hbm, ⟨75, _⟩ => ⟨S_, .i32⟩
  | .hbm, ⟨76, _⟩ => ⟨S600000, .i32⟩
  | .hbm, ⟨77, _⟩ => ⟨S600000, .i1⟩
  | .hbm, ⟨78, _⟩ => ⟨S_, .i32⟩
  | .hbm, ⟨79, _⟩ => ⟨S600000, .i32⟩
  | .hbm, ⟨80, _⟩ => ⟨S600000, .i32⟩
  | .hbm, ⟨81, _⟩ => ⟨S600000, .i32⟩
  | .hbm, ⟨82, _⟩ => ⟨S600000x1, .i32⟩
  | .hbm, ⟨83, _⟩ => ⟨S600000x64, .f32⟩
  | .hbm, ⟨84, _⟩ => ⟨S600000x64, .f32⟩
  | .hbm, ⟨85, _⟩ => ⟨S_, .f32⟩
  | .hbm, ⟨86, _⟩ => ⟨S1000000x64, .f32⟩
  | .hbm, ⟨87, _⟩ => ⟨S_, .i32⟩
  | .hbm, ⟨88, _⟩ => ⟨S600000, .i32⟩
  | .hbm, ⟨89, _⟩ => ⟨S600000, .i1⟩
  | .hbm, ⟨90, _⟩ => ⟨S_, .i32⟩
  | .hbm, ⟨91, _⟩ => ⟨S600000, .i32⟩
  | .hbm, ⟨92, _⟩ => ⟨S600000, .i32⟩
  | .hbm, ⟨93, _⟩ => ⟨S600000, .i32⟩
  | .hbm, ⟨94, _⟩ => ⟨S600000x1, .i32⟩
  | .hbm, ⟨95, _⟩ => ⟨S1000000x64, .f32⟩
  | .hbm, ⟨96, _⟩ => ⟨S600000x64, .f32⟩
  | .hbm, ⟨97, _⟩ => ⟨S_, .i32⟩
  | .hbm, ⟨98, _⟩ => ⟨S600000, .i32⟩
  | .hbm, ⟨99, _⟩ => ⟨S600000, .i1⟩
  | .hbm, ⟨100, _⟩ => ⟨S_, .i32⟩
  | .hbm, ⟨101, _⟩ => ⟨S600000, .i32⟩
  | .hbm, ⟨102, _⟩ => ⟨S600000, .i32⟩
  | .hbm, ⟨103, _⟩ => ⟨S600000, .i32⟩
  | .hbm, ⟨104, _⟩ => ⟨S600000x1, .i32⟩
  | .hbm, ⟨105, _⟩ => ⟨S1000000x64, .f32⟩
  | .hbm, ⟨106, _⟩ => ⟨S_, .i32⟩
  | .hbm, ⟨107, _⟩ => ⟨S600000, .i32⟩
  | .hbm, ⟨108, _⟩ => ⟨S600000, .i1⟩
  | .hbm, ⟨109, _⟩ => ⟨S_, .i32⟩
  | .hbm, ⟨110, _⟩ => ⟨S600000, .i32⟩
  | .hbm, ⟨111, _⟩ => ⟨S600000, .i32⟩
  | .hbm, ⟨112, _⟩ => ⟨S600000, .i32⟩
  | .hbm, ⟨113, _⟩ => ⟨S600000x1, .i32⟩
  | .hbm, ⟨114, _⟩ => ⟨S1000000x64, .f32⟩
  | .hbm, ⟨115, _⟩ => ⟨S1000000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S8000x64, .f32⟩
  | .local _ .vmem, ⟨10, _⟩ => ⟨S8000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_c_14 : Ref sig .tc := ⟨.hbm, 87, rfl⟩
abbrev main_v65 : Ref sig .tc := ⟨.hbm, 88, rfl⟩
abbrev main_v66 : Ref sig .tc := ⟨.hbm, 89, rfl⟩
abbrev main_c_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_16 : Ref sig .tc := ⟨.hbm, 97, rfl⟩
abbrev main_v73 : Ref sig .tc := ⟨.hbm, 98, rfl⟩
abbrev main_v74 : Ref sig .tc := ⟨.hbm, 99, rfl⟩
abbrev main_c_17 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_18 : Ref sig .tc := ⟨.hbm, 106, rfl⟩
abbrev main_v80 : Ref sig .tc := ⟨.hbm, 107, rfl⟩
abbrev main_v81 : Ref sig .tc := ⟨.hbm, 108, rfl⟩
abbrev main_c_19 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  slices_S600000x3_S600000x1_0_0 : S600000x3.Slices ![0, 0] S600000x1
  shapeCasts_S600000x1_S600000 : S600000x1.ShapeCasts S600000
  slices_S600000x3_S600000x1_0_1 : S600000x3.Slices ![0, 1] S600000x1
  slices_S600000x3_S600000x1_0_2 : S600000x3.Slices ![0, 2] S600000x1
  bcast_S_S500000x64 : S_.BroadcastsInDim S500000x64 (![] : Fin 0 → Fin S500000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S1000000x64 : S_.BroadcastsInDim S1000000x64 (![] : Fin 0 → Fin S1000000x64.rank)
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  scatter_S500000x64_S1000000x1_S1000000x64_1_0_0_1_wf : ScatterDims.WF S500000x64 S1000000x1 S1000000x64 [1] [0] [0] 1
  gather_S500000x64_S1000000x1_S1000000x64_1_0_n_n_0_1_164_wf : GatherDims.WF S500000x64 S1000000x1 S1000000x64 [1] [0] [] [0] [] 1 ![1, 64]
  gather_S1000000x64_S600000x1_S600000x64_1_0_n_n_0_1_164_wf : GatherDims.WF S1000000x64 S600000x1 S600000x64 [1] [0] [] [0] [] 1 ![1, 64]
  scatter_S1000000x64_S600000x1_S600000x64_1_0_0_1_wf : ScatterDims.WF S1000000x64 S600000x1 S600000x64 [1] [0] [0] 1
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1000000x64.size a
  hwx0_2 : ∀ i : grid0.Coords, EltTy.bits .f32 = 32 ∨ (Rect.block (s := S1000000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S1000000x64.size a
  hwx0_6 : ∀ i : grid0.Coords, EltTy.bits .f32 = 32 ∨ (Rect.block (s := S1000000x64) S8000x64.size (cc0_transform_6 i) (hinb0_6 i)).WholeWords (EltTy.packing .f32)

variable [Facts₀]

def scatter_S500000x64_S1000000x1_S1000000x64_1_0_0_1 : ScatterDims S500000x64 S1000000x1 S1000000x64 where
  updateWindowDims := [1]
  insertedWindowDims := [0]
  scatterDimsToOperandDims := [0]
  indexVectorDim := 1
  wf := scatter_S500000x64_S1000000x1_S1000000x64_1_0_0_1_wf
def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def gather_S1000000x64_S600000x1_S600000x64_1_0_n_n_0_1_164 : GatherDims S1000000x64 S600000x1 S600000x64 where
  offsetDims := [1]
  collapsedSliceDims := [0]
  operandBatchingDims := []
  startIndicesBatchingDims := []
  startIndexMap := [0]
  indexVectorDim := 1
  sliceSizes := ![1, 64]
  wf := gather_S1000000x64_S600000x1_S600000x64_1_0_n_n_0_1_164_wf
def scatter_S1000000x64_S600000x1_S600000x64_1_0_0_1 : ScatterDims S1000000x64 S600000x1 S600000x64 where
  updateWindowDims := [1]
  insertedWindowDims := [0]
  scatterDimsToOperandDims := [0]
  indexVectorDim := 1
  wf := scatter_S1000000x64_S600000x1_S600000x64_1_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v86) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v87) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S1000000x2 : Shape := ⟨2, ![1000000, 2]⟩
abbrev S600000x3 : Shape := ⟨2, ![600000, 3]⟩
abbrev S64x64 : Shape := ⟨2, ![64, 64]⟩
abbrev S1000000x1 : Shape := ⟨2, ![1000000, 1]⟩
abbrev S1000000 : Shape := ⟨1, ![1000000]⟩
abbrev S600000x1 : Shape := ⟨2, ![600000, 1]⟩
abbrev S600000 : Shape := ⟨1, ![600000]⟩
abbrev S_ : Shape := ⟨0, ![]⟩
abbrev S500000x64 : Shape := ⟨2, ![500000, 64]⟩
abbrev S600000x64 : Shape := ⟨2, ![600000, 64]⟩

abbrev nBuf : Space → Nat
  | .hbm => 121
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1000000x2, .i32⟩
  | .hbm, ⟨2, _⟩ => ⟨S600000x3, .i32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S1000000x1, .i32⟩
  | .hbm, ⟨7, _⟩ => ⟨S1000000, .i32⟩
  | .hbm, ⟨8, _⟩ => ⟨S1000000x1, .i32⟩
  | .hbm, ⟨9, _⟩ => ⟨S1000000, .i32⟩
  | .hbm, ⟨10, _⟩ => ⟨S600000x1, .i32⟩
  | .hbm, ⟨11, _⟩ => ⟨S600000, .i32⟩
  | .hbm, ⟨12, _⟩ => ⟨S600000x1, .i32⟩
  | .hbm, ⟨13, _⟩ => ⟨S600000, .i32⟩
  | .hbm, ⟨14, _⟩ => ⟨S600000x1, .i32⟩
  | .hbm, ⟨15, _⟩ => ⟨S600000, .i32⟩
  | .hbm, ⟨16, _⟩ => ⟨S_, .f32⟩
  | .hbm, ⟨17, _⟩ => ⟨S500000x64, .f32⟩
  | .hbm, ⟨18, _⟩ => ⟨S1000000x64, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S500000x64, .f32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S500000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S1000000x64, .f32⟩
  | .hbm, ⟨56, _⟩ => ⟨S1000000x64, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x64, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x64, .f32⟩
  | .hbm, ⟨75, _⟩ => ⟨S600000x64, .f32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x64, .f32⟩
  | .hbm, ⟨85, _⟩ => ⟨S600000x64, .f32⟩
  | .hbm, ⟨86, _⟩ => ⟨S_, .f32⟩
  | .hbm, ⟨87, _⟩ => ⟨S1000000x64, .f32⟩
  | .hbm, ⟨88, _⟩ => ⟨S_, .i32⟩
  | .hbm, ⟨89, _⟩ => ⟨S600000, .i32⟩
  | .hbm, ⟨90, _⟩ => ⟨S600000, .i1⟩
  | .hbm, ⟨91, _⟩ => ⟨S_, .i32⟩
  | .hbm, ⟨92, _⟩ => ⟨S600000, .i32⟩
  | .hbm, ⟨93, _⟩ => ⟨S600000, .i32⟩
  | .hbm, ⟨94, _⟩ => ⟨S600000, .i32⟩
  | .hbm, ⟨95, _⟩ => ⟨S600000x1, .i32⟩
  | .hbm, ⟨96, _⟩ => ⟨S1000000x64, .f32⟩
  | .hbm, ⟨97, _⟩ => ⟨S600000x64, .f32⟩
  | .hbm, ⟨98, _⟩ => ⟨S_, .i32⟩
  | .hbm, ⟨99, _⟩ => ⟨S600000, .i32⟩
  | .hbm, ⟨100, _⟩ => ⟨S600000, .i1⟩
  | .hbm, ⟨101, _⟩ => ⟨S_, .i32⟩
  | .hbm, ⟨102, _⟩ => ⟨S600000, .i32⟩
  | .hbm, ⟨103, _⟩ => ⟨S600000, .i32⟩
  | .hbm, ⟨104, _⟩ => ⟨S600000, .i32⟩
  | .hbm, ⟨105, _⟩ => ⟨S600000x1, .i32⟩
  | .hbm, ⟨106, _⟩ => ⟨S1000000x64, .f32⟩
  | .hbm, ⟨107, _⟩ => ⟨S_, .i32⟩
  | .hbm, ⟨108, _⟩ => ⟨S600000, .i32⟩
  | .hbm, ⟨109, _⟩ => ⟨S600000, .i1⟩
  | .hbm, ⟨110, _⟩ => ⟨S_, .i32⟩
  | .hbm, ⟨111, _⟩ => ⟨S600000, .i32⟩
  | .hbm, ⟨112, _⟩ => ⟨S600000, .i32⟩
  | .hbm, ⟨113, _⟩ => ⟨S600000, .i32⟩
  | .hbm, ⟨114, _⟩ => ⟨S600000x1, .i32⟩
  | .hbm, ⟨115, _⟩ => ⟨S1000000x64, .f32⟩
  | .hbm, ⟨116, _⟩ => ⟨S1000000x64, .f32⟩
  | .hbm, ⟨117, _⟩ => ⟨S1000000x64, .f32⟩
  | .hbm, ⟨118, _⟩ => ⟨S1000000x64, .f32⟩
  | .hbm, ⟨119, _⟩ => ⟨S1000000x64, .f32⟩
  | .hbm, ⟨120, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_c_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_c_14 : Ref sig .tc := ⟨.hbm, 88, rfl⟩
abbrev main_v66 : Ref sig .tc := ⟨.hbm, 89, rfl⟩
abbrev main_v67 : Ref sig .tc := ⟨.hbm, 90, rfl⟩
abbrev main_c_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_16 : Ref sig .tc := ⟨.hbm, 98, rfl⟩
abbrev main_v74 : Ref sig .tc := ⟨.hbm, 99, rfl⟩
abbrev main_v75 : Ref sig .tc := ⟨.hbm, 100, rfl⟩
abbrev main_c_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_18 : Ref sig .tc := ⟨.hbm, 107, rfl⟩
abbrev main_v81 : Ref sig .tc := ⟨.hbm, 108, rfl⟩
abbrev main_v82 : Ref sig .tc := ⟨.hbm, 109, rfl⟩
abbrev main_c_19 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  slices_S600000x3_S600000x1_0_0 : S600000x3.Slices ![0, 0] S600000x1
  shapeCasts_S600000x1_S600000 : S600000x1.ShapeCasts S600000
  slices_S600000x3_S600000x1_0_1 : S600000x3.Slices ![0, 1] S600000x1
  slices_S600000x3_S600000x1_0_2 : S600000x3.Slices ![0, 2] S600000x1
  bcast_S_S500000x64 : S_.BroadcastsInDim S500000x64 (![] : Fin 0 → Fin S500000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S1000000x64 : S_.BroadcastsInDim S1000000x64 (![] : Fin 0 → Fin S1000000x64.rank)
  scatter_S500000x64_S1000000x1_S1000000x64_1_0_0_1_wf : ScatterDims.WF S500000x64 S1000000x1 S1000000x64 [1] [0] [0] 1
  gather_S500000x64_S1000000x1_S1000000x64_1_0_n_n_0_1_164_wf : GatherDims.WF S500000x64 S1000000x1 S1000000x64 [1] [0] [] [0] [] 1 ![1, 64]
  dot_S1000000x64_S64x64_S1000000x64_1_0_0_1_n_n_wf : DotDims.WF S1000000x64 S64x64 S1000000x64 [1] [0] [0] [1] [] []
  gather_S1000000x64_S600000x1_S600000x64_1_0_n_n_0_1_164_wf : GatherDims.WF S1000000x64 S600000x1 S600000x64 [1] [0] [] [0] [] 1 ![1, 64]
  scatter_S1000000x64_S600000x1_S600000x64_1_0_0_1_wf : ScatterDims.WF S1000000x64 S600000x1 S600000x64 [1] [0] [0] 1

variable [Facts₀]

def scatter_S500000x64_S1000000x1_S1000000x64_1_0_0_1 : ScatterDims S500000x64 S1000000x1 S1000000x64 where
  updateWindowDims := [1]
  insertedWindowDims := [0]
  scatterDimsToOperandDims := [0]
  indexVectorDim := 1
  wf := scatter_S500000x64_S1000000x1_S1000000x64_1_0_0_1_wf
def gather_S500000x64_S1000000x1_S1000000x64_1_0_n_n_0_1_164 : GatherDims S500000x64 S1000000x1 S1000000x64 where
  offsetDims := [1]
  collapsedSliceDims := [0]
  operandBatchingDims := []
  startIndicesBatchingDims := []
  startIndexMap := [0]
  indexVectorDim := 1
  sliceSizes := ![1, 64]
  wf := gather_S500000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S1000000x64_S600000x1_S600000x64_1_0_n_n_0_1_164 : GatherDims S1000000x64 S600000x1 S600000x64 where
  offsetDims := [1]
  collapsedSliceDims := [0]
  operandBatchingDims := []
  startIndicesBatchingDims := []
  startIndexMap := [0]
  indexVectorDim := 1
  sliceSizes := ![1, 64]
  wf := gather_S1000000x64_S600000x1_S600000x64_1_0_n_n_0_1_164_wf
def scatter_S1000000x64_S600000x1_S600000x64_1_0_0_1 : ScatterDims S1000000x64 S600000x1 S600000x64 where
  updateWindowDims := [1]
  insertedWindowDims := [0]
  scatterDimsToOperandDims := [0]
  indexVectorDim := 1
  wf := scatter_S1000000x64_S600000x1_S600000x64_1_0_0_1_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Spec.lean ====
/-
  The layer as one function of six arrays.

  Three edge-feature arrays of shape [1000000, 64] (the identity term `x`, the lower-Laplacian term `dy` and
  the upper-Laplacian term `e`) are each multiplied by a 64 x 64 weight matrix; the three products are added,
  the upper term first, then the identity term, then the lower term, and the hyperbolic tangent is taken entry
  by entry. On the extended reals the entry at row `r` and column `j` is

      tanh ((sum_k e[r,k] * w2[k,j] + sum_k x[r,k] * w1[k,j]) + sum_k dy[r,k] * w0[k,j]).

  Both programs compute exactly this grouping of the three sums, so no law of the extended reals beyond the
  reading of each matrix product as a finite sum is used, and no finiteness of the inputs.
-/
import Idealize.ShloMosaic.Lib.ValueIdx
import Idealize.ShloMosaic.PureOps.Ideal.Laws

noncomputable section

namespace Cert.Spec

open Idealize.ShloMosaic Idealize.ShloMosaic.ValueIdx

/-- The shape of an edge-feature array. -/
abbrev SE : Shape := ⟨2, ![1000000, 64]⟩
/-- The shape of a weight matrix. -/
abbrev SW : Shape := ⟨2, ![64, 64]⟩

/-- Row `r` of an array of `n` rows times column `j` of a weight matrix: the sum over the 64 features. -/
def rowDot {n : Nat} (a : (⟨2, ![n, 64]⟩ : Shape).Idx → EReal) (w : SW.Idx → EReal) (r : Fin n) (j : Fin 64) : EReal :=
  ∑ k : Fin 64, a (ix2 r k) * w (ix2 k j)

/-- One entry of the layer from the three rows' projections. -/
def entry {n : Nat} (x dy e : (⟨2, ![n, 64]⟩ : Shape).Idx → EReal) (w0 w1 w2 : SW.Idx → EReal) (r : Fin n) (j : Fin 64) : EReal :=
  Ideal.tanh ((rowDot e w2 r j + rowDot x w1 r j) + rowDot dy w0 r j)

/-- The whole layer: entry `(r, j)` of the result from rows `r` of the three feature arrays. -/
def layer (x dy e : SE.Idx → EReal) (w0 w1 w2 : SW.Idx → EReal) : SE.Idx → EReal :=
  fun i => entry x dy e w0 w1 w2 (i 0) (i 1)

theorem layer_ix2 (x dy e : SE.Idx → EReal) (w0 w1 w2 : SW.Idx → EReal) (r : Fin 1000000) (j : Fin 64) :
    layer x dy e w0 w1 w2 (ix2 r j) = entry x dy e w0 w1 w2 r j := rfl

end Cert.Spec

end
-- ==== Proof.Payload.lean ====
/-
  What the kernel body stores, read at one entry.

  The body loads one block of 8000 rows from each of the three feature arrays and the three whole weight
  matrices, narrows all six (the identity on the extended reals), forms the three matrix products into zero
  accumulators, adds the upper-Laplacian product and the identity product, then the lower-Laplacian product, and
  takes the hyperbolic tangent. At row `p` of the block and column `j` that is the layer's entry computed
  from rows `p` of the three blocks: each product into a zero accumulator is the plain sum over the 64
  contracted features.
-/
import proofs.«126551_j20151986553302_1_alg».proof.Proof.Gen.KernelIdeal.Skeleton
import proofs.«126551_j20151986553302_1_alg».proof.Proof.LibDot2
import proofs.«126551_j20151986553302_1_alg».proof.Proof.Spec
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx

/-! ## The product's dimension numbers: which coordinate is which -/

/-- The left operand is read at the output's row … -/
theorem lhs_row (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
/-- … and at the contracted feature; -/
theorem lhs_feature (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
/-- the right operand at the contracted feature … -/
theorem rhs_feature (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
/-- … and at the output's column. -/
theorem rhs_col (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A block times a weight matrix into the zero accumulator, at row `p` and column `j`: the sum over the 64
    features of the block's row against the matrix's column. -/
theorem block_product {φ₁ φ₂ : FTy} (l : FVec Ideal S8000x64 φ₁) (r : FVec Ideal S64x64 φ₂) (p : Fin 8000) (j : Fin 64) :
    matmul dot_S8000x64_S64x64_S8000x64_1_0_0_1_n_n none l r (constant (F := Ideal) S8000x64 .f32 0x00000000#32) (ix2 p j)
      = ∑ a : Fin 64, l (ix2 p a) * r (ix2 a j) :=
  Cert.Lib.Dot2.matmul_zero_ix2 (M := 8000) (K := 64) (N := 64) dot_S8000x64_S64x64_S8000x64_1_0_0_1_n_n none rfl rfl
    lhs_row lhs_feature rhs_feature rhs_col l r p j

/-! ## The stored value at an entry -/

/-- The value the body stores, at row `p` and column `j` of the block, is the layer's entry from rows `p` of the
    loaded blocks: `x` the identity term's block, `dy` the lower term's, `e` the upper term's. -/
theorem stored_entry (x dy e : Vec Ideal S8000x64 .f32) (w0 w1 w2 : Vec Ideal S64x64 .f32) (p : Fin 8000) (j : Fin 64) :
    k0_pay1 (F := Ideal) x dy e w0 w1 w2 (ix2 p j) = Cert.Spec.entry x dy e w0 w1 w2 p j := by
  unfold k0_pay1 Cert.Spec.entry Cert.Spec.rowDot
  show Ideal.tanh ((matmul dot_S8000x64_S64x64_S8000x64_1_0_0_1_n_n none (truncf .bf16 (shapeCast S8000x64 e shapeCasts_S8000x64_S8000x64) bitsLt_bf16_f32) (truncf .bf16 w2 bitsLt_bf16_f32) (constant (F := Ideal) S8000x64 .f32 0x00000000#32) (ix2 p j)
      + matmul dot_S8000x64_S64x64_S8000x64_1_0_0_1_n_n none (truncf .bf16 x bitsLt_bf16_f32) (truncf .bf16 w1 bitsLt_bf16_f32) (constant (F := Ideal) S8000x64 .f32 0x00000000#32) (ix2 p j))
      + matmul dot_S8000x64_S64x64_S8000x64_1_0_0_1_n_n none (truncf .bf16 (shapeCast S8000x64 dy shapeCasts_S8000x64_S8000x64) bitsLt_bf16_f32) (truncf .bf16 w0 bitsLt_bf16_f32) (constant (F := Ideal) S8000x64 .f32 0x00000000#32) (ix2 p j)) = _
  rw [block_product, block_product, block_product, shapeCast_self, shapeCast_self]
  rfl

/-- The same with the blocks located in their arrays: if rows `y 0` of the three loaded blocks are rows `i 0` of the
    three feature arrays, the loaded matrices are the weight matrices, and the column is the same, then the stored
    value at `y` is the layer of the arrays at `i`. -/
theorem stored_of_rows (X DY E : Cert.Spec.SE.Idx → EReal) (W0 W1 W2 : Cert.Spec.SW.Idx → EReal)
    (x dy e : Vec Ideal S8000x64 .f32) (w0 w1 w2 : Vec Ideal S64x64 .f32)
    (y : S8000x64.Idx) (i : Cert.Spec.SE.Idx)
    (hx : ∀ k : Fin 64, x (ix2 (y 0) k) = X (ix2 (i 0) k))
    (hdy : ∀ k : Fin 64, dy (ix2 (y 0) k) = DY (ix2 (i 0) k))
    (he : ∀ k : Fin 64, e (ix2 (y 0) k) = E (ix2 (i 0) k))
    (hw0 : w0 = W0) (hw1 : w1 = W1) (hw2 : w2 = W2) (hcol : (i 1 : Fin 64) = y 1) :
    k0_pay1 (F := Ideal) x dy e w0 w1 w2 y = Cert.Spec.layer X DY E W0 W1 W2 i := by
  subst hw0 hw1 hw2
  have hy : y = ix2 (y 0) (y 1) := eq_ix2 y
  refine (congrArg (k0_pay1 (F := Ideal) x dy e w0 w1 w2) hy).trans ?_
  refine (stored_entry x dy e w0 w1 w2 (y 0) (y 1)).trans ?_
  unfold Cert.Spec.layer Cert.Spec.entry Cert.Spec.rowDot
  simp only [hx, hdy, he, hcol]

end Cert.KernelIdeal.Payload

end
-- ==== Proof.KernelArray.lean ====
/-
  From blocks to the whole array: what the kernel's result array holds after the run.

  The grid has 125 points; point `t` stages rows `8000 t … 8000 t + 7999` of the three feature arrays, the three
  whole weight matrices, and writes back rows `8000 t … 8000 t + 7999` of the result. What it writes back is the
  layer of the whole arrays read through that block of rows (the stored value at row `p` only depends on rows
  `8000 t + p` of the feature arrays), and the 125 blocks cover all 1000000 rows (row `r` lies in block `r / 8000`).
  So the result array ends holding the layer of the arrays as the region finds them.
-/
import proofs.«126551_j20151986553302_1_alg».proof.Proof.Gen.KernelIdeal.Value
import proofs.«126551_j20151986553302_1_alg».proof.Proof.Payload

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the three feature windows and the result window are at block row `t`,
    block column 0; the three weight windows stay at block (0, 0). -/
theorem index_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Point `t`'s blocks of ANY six arrays, through the body, are block `t` of the layer of those arrays: row `p`
    of a feature block is row `8000 t + p` of its array, a weight block is its whole matrix, and the column is kept. -/
theorem block_eq (X DY E : S1000000x64.Idx → EReal) (W0 W1 W2 : S64x64.Idx → EReal) (t : Fin cfg0.N) :
    (cfg0.win 6).cut (grid0.coords t)
        (k0_pay1 (F := Ideal) (((cfg0.win 0).blk t).view.read (Elt Ideal) X) (((cfg0.win 1).blk t).view.read (Elt Ideal) DY)
          (((cfg0.win 2).blk t).view.read (Elt Ideal) E) (((cfg0.win 3).blk t).view.read (Elt Ideal) W0)
          (((cfg0.win 4).blk t).view.read (Elt Ideal) W1) (((cfg0.win 5).blk t).view.read (Elt Ideal) W2))
      = ((cfg0.win 6).blk t).view.read (Elt Ideal) (Cert.Spec.layer X DY E W0 W1 W2) := by
  obtain ⟨e60, e61, e00, e01, e10, e11, e20, e21, e30, e31, e40, e41, e50, e51⟩ := index_facts t
  funext y
  show k0_pay1 (F := Ideal) (((cfg0.win 0).blk t).view.read (Elt Ideal) X) (((cfg0.win 1).blk t).view.read (Elt Ideal) DY)
          (((cfg0.win 2).blk t).view.read (Elt Ideal) E) (((cfg0.win 3).blk t).view.read (Elt Ideal) W0)
          (((cfg0.win 4).blk t).view.read (Elt Ideal) W1) (((cfg0.win 5).blk t).view.read (Elt Ideal) W2) y
      = Cert.Spec.layer X DY E W0 W1 W2 (((cfg0.win 6).blk t).view.emb y)
  refine Cert.KernelIdeal.Payload.stored_of_rows X DY E W0 W1 W2 _ _ _ _ _ _ y (((cfg0.win 6).blk t).view.emb y) ?_ ?_ ?_ ?_ ?_ ?_ ?_
  · intro k
    show X (((cfg0.win 0).blk t).view.emb (ix2 (y 0) k)) = X (ix2 ((((cfg0.win 6).blk t).view.emb y) 0) k)
    refine congrArg X (funext fun a => Fin.ext ?_)
    match a with
    | ⟨0, _⟩ => show win0_0.index t (0 : Fin 2) * 8000 + 1 * (y 0).val = win0_6.index t (0 : Fin 2) * 8000 + 1 * (y 0).val; omega
    | ⟨1, _⟩ => show win0_0.index t (1 : Fin 2) * 64 + 1 * k.val = k.val; omega
  · intro k
    show DY (((cfg0.win 1).blk t).view.emb (ix2 (y 0) k)) = DY (ix2 ((((cfg0.win 6).blk t).view.emb y) 0) k)
    refine congrArg DY (funext fun a => Fin.ext ?_)
    match a with
    | ⟨0, _⟩ => show win0_1.index t (0 : Fin 2) * 8000 + 1 * (y 0).val = win0_6.index t (0 : Fin 2) * 8000 + 1 * (y 0).val; omega
    | ⟨1, _⟩ => show win0_1.index t (1 : Fin 2) * 64 + 1 * k.val = k.val; omega
  · intro k
    show E (((cfg0.win 2).blk t).view.emb (ix2 (y 0) k)) = E (ix2 ((((cfg0.win 6).blk t).view.emb y) 0) k)
    refine congrArg E (funext fun a => Fin.ext ?_)
    match a with
    | ⟨0, _⟩ => show win0_2.index t (0 : Fin 2) * 8000 + 1 * (y 0).val = win0_6.index t (0 : Fin 2) * 8000 + 1 * (y 0).val; omega
    | ⟨1, _⟩ => show win0_2.index t (1 : Fin 2) * 64 + 1 * k.val = k.val; omega
  · funext z
    show W0 (((cfg0.win 3).blk t).view.emb z) = W0 z
    refine congrArg W0 (funext fun a => Fin.ext ?_)
    match a with
    | ⟨0, _⟩ => show win0_3.index t (0 : Fin 2) * 64 + 1 * (z 0).val = (z 0).val; omega
    | ⟨1, _⟩ => show win0_3.index t (1 : Fin 2) * 64 + 1 * (z 1).val = (z 1).val; omega
  · funext z
    show W1 (((cfg0.win 4).blk t).view.emb z) = W1 z
    refine congrArg W1 (funext fun a => Fin.ext ?_)
    match a with
    | ⟨0, _⟩ => show win0_4.index t (0 : Fin 2) * 64 + 1 * (z 0).val = (z 0).val; omega
    | ⟨1, _⟩ => show win0_4.index t (1 : Fin 2) * 64 + 1 * (z 1).val = (z 1).val; omega
  · funext z
    show W2 (((cfg0.win 5).blk t).view.emb z) = W2 z
    refine congrArg W2 (funext fun a => Fin.ext ?_)
    match a with
    | ⟨0, _⟩ => show win0_5.index t (0 : Fin 2) * 64 + 1 * (z 0).val = (z 0).val; omega
    | ⟨1, _⟩ => show win0_5.index t (1 : Fin 2) * 64 + 1 * (z 1).val = (z 1).val; omega
  · refine Fin.ext ?_
    show win0_6.index t (1 : Fin 2) * 64 + 1 * (y 1).val = (y 1).val
    omega

/-- The layer of the arrays as the region finds them. -/
def result (c : Dev nD) : S1000000x64.Idx → EReal :=
  Cert.Spec.layer (V m c main_arg0) (V m c main_v40) (V m c main_v86) (V m c main_arg3) (V m c main_arg4) (V m c main_arg5)

/-- What point `t` writes back is block `t` of the layer of the whole arrays. -/
theorem flushed_eq (c : Dev nD) (t : Fin cfg0.N) :
    (dats m 0 c).flushed 6 t = ((cfg0.win 6).blk t).view.read (Elt Ideal) (result m c) := by
  rw [Cert.KernelIdeal.Value.flushed6]
  unfold out0_6 result
  rw [View.canon_unit_zero zero_offsets]
  simp only [View.ld_unit_zero (S := S8000x64) zero_offsets, View.ld_unit_zero (S := S64x64) zero_offsets]
  exact block_eq (V m c main_arg0) (V m c main_v40) (V m c main_v86) (V m c main_arg3) (V m c main_arg4) (V m c main_arg5) t

/-- An index of the result array is in point `t`'s block iff each coordinate is in the block's range on its axis. -/
theorem mem_block (t : Fin cfg0.N) (i : S1000000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v87).slice (win0_6.rect t)).set ↔ _
  rw [View.set_slice_whole, Rect.mem_set_unit]
  exact Iff.rfl

/-- Every row of the result lies in the block of the point `row / 8000`. -/
theorem covered (i : S1000000x64.Idx) :
    ∃ t : Fin cfg0.N, (cfg0.win 6).flush t = true ∧ i ∈ ((cfg0.win 6).blk t).view.set := by
  have hi0 : (i 0).val < 1000000 := (i 0).isLt
  have hi1 : (i 1).val < 64 := (i 1).isLt
  have hN : cfg0.N = 125 := N_0
  let t : Fin cfg0.N := ⟨(i 0).val / 8000, by rw [hN]; omega⟩
  have ht : t.val = (i 0).val / 8000 := rfl
  obtain ⟨e60, e61, -⟩ := index_facts t
  refine ⟨t, flush0_6 t, ?_⟩
  rw [mem_block]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 64 ≤ (i 1).val ∧ (i 1).val < win0_6.index t (1 : Fin 2) * 64 + 64; omega

/-- The result array after the run is the layer of the arrays as the region finds them. -/
theorem final (c : Dev nD) : (dats m 0 c).arrAt 6 cfg0.N = result m c :=
  (dats m 0 c).arrAt_eq_of_cover 6 (result m c) (fun t _ => flushed_eq m c t) covered

/-- The run, with the result array named as the layer of the region-entry arrays and the arguments unchanged. -/
theorem run : θ_run defs (onTc (τ := τ) (main (F := Ideal))) ⟨m, fun _ => 0, ρ⟩ fun r => ∀ c : Dev nD,
      r.2.mem ((c : Thread nD τ).loc main_v87) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.ArrayValue

end
-- ==== Proof.RefLayer.lean ====
/-
  The reference computes the layer.

  The reference's last five operations are three whole-array matrix products (the upper-Laplacian term by `w2`,
  the identity term by `w1`, and, computed earlier, the lower-Laplacian term by `w0`), two additions in the order
  (upper + identity) + lower, and the hyperbolic tangent. Read at an index, each host product is the sum over the
  64 contracted features of the left operand's row against the right operand's column, so the result is the layer
  of the argument arrays and of the two arrays the reference's own gather / scatter prelude produced.
-/
import proofs.«126551_j20151986553302_1_alg».proof.Proof.Gen.ReferenceIdeal.Read
import proofs.«126551_j20151986553302_1_alg».proof.Proof.Spec

noncomputable section

namespace Cert.ReferenceIdeal.Layer

open Cert.ReferenceIdeal Cert.ReferenceIdeal.Read Idealize.ShloMosaic Idealize.ShloMosaic.ValueIdx

/-- The reference's result stage is the layer of its arguments and of its two prelude arrays: the signed
    gather-of-scatter over the nodes (`val_main_v40`) and the signed scatter-of-gather over the triangles
    (`val_main_v87`). -/
theorem result_eq_layer (x0 : (⟨S1000000x64, .f32⟩ : BufTy).Contents (Elt Ideal)) (x1 : (⟨S1000000x2, .i32⟩ : BufTy).Contents (Elt Ideal))
    (x2 : (⟨S600000x3, .i32⟩ : BufTy).Contents (Elt Ideal)) (x3 x4 x5 : (⟨S64x64, .f32⟩ : BufTy).Contents (Elt Ideal)) :
    val_main_v92 (F := Ideal) x0 x1 x2 x3 x4 x5
      = Cert.Spec.layer x0 (val_main_v40 (F := Ideal) x0 x1) (val_main_v87 (F := Ideal) x0 x2) x3 x4 x5 := by
  funext i
  have l88 : ∀ k : Fin 64, lidx_main_v88 i k = ix2 (i 0) k := fun k => funext fun a => Fin.ext (by
    match a with
    | ⟨0, _⟩ => rfl
    | ⟨1, _⟩ => rfl)
  have r88 : ∀ k : Fin 64, ridx_main_v88 i k = ix2 k (i 1) := fun k => funext fun a => Fin.ext (by
    match a with
    | ⟨0, _⟩ => rfl
    | ⟨1, _⟩ => rfl)
  have l89 : ∀ k : Fin 64, lidx_main_v89 i k = ix2 (i 0) k := fun k => funext fun a => Fin.ext (by
    match a with
    | ⟨0, _⟩ => rfl
    | ⟨1, _⟩ => rfl)
  have r89 : ∀ k : Fin 64, ridx_main_v89 i k = ix2 k (i 1) := fun k => funext fun a => Fin.ext (by
    match a with
    | ⟨0, _⟩ => rfl
    | ⟨1, _⟩ => rfl)
  have l41 : ∀ k : Fin 64, lidx_main_v41 i k = ix2 (i 0) k := fun k => funext fun a => Fin.ext (by
    match a with
    | ⟨0, _⟩ => rfl
    | ⟨1, _⟩ => rfl)
  have r41 : ∀ k : Fin 64, ridx_main_v41 i k = ix2 k (i 1) := fun k => funext fun a => Fin.ext (by
    match a with
    | ⟨0, _⟩ => rfl
    | ⟨1, _⟩ => rfl)
  rw [val_main_v92_apply, val_main_v91_apply, val_main_v90_apply, val_main_v88_apply, val_main_v89_apply, val_main_v41_apply]
  simp only [l88, r88, l89, r89, l41, r41, Ideal.addf_def, Ideal.hostUnary_tanh_def]
  rfl

end Cert.ReferenceIdeal.Layer

end
-- ==== Proof.Prelude.lean ====
/-
  The two programs share their prelude.

  Before the dense stage both programs run the same host operations on the same arguments: the signed scatter of
  the edge features onto the nodes followed by the signed gather back to the edges (the lower-Laplacian term), and
  the signed gather onto the triangles followed by the signed scatter back to the edges (the upper-Laplacian
  term). The kernel program hands the two resulting arrays to its dense stage as operands; the reference feeds them
  to its matrix products. Operation by operation the two preludes are the same functions applied to the same
  operands, so the arrays the kernel's region finds are the reference's two prelude stages of the arguments. Nothing
  is computed here: the scatters and gathers are never opened.
-/
import proofs.«126551_j20151986553302_1_alg».proof.Proof.Gen.KernelIdeal.Frame
import proofs.«126551_j20151986553302_1_alg».proof.Proof.Gen.ReferenceIdeal.Read
import Idealize.ShloMosaic.Lib.StableHlo.Run

noncomputable section

namespace Cert.KernelIdeal.Prelude

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 4000000 in
/-- The lower-Laplacian operand of the dense stage, as the region finds it, is the reference's stage of the same
    name of the edge features and the edge-to-node table. -/
theorem lower_term (c : Dev nD) :
    V m c main_v40 = Cert.ReferenceIdeal.Read.val_main_v40 (F := Ideal) (m ((c : Thread nD τ).loc main_arg0)) (m ((c : Thread nD τ).loc main_arg1)) := by
  show StableHlo.after hostOps0 (fun b => m (c, b)) (Proc.devRef .tc main_v40) = _
  after_results_simp
  rfl

set_option maxRecDepth 8192 in
set_option maxHeartbeats 4000000 in
/-- The upper-Laplacian operand of the dense stage, as the region finds it, is the reference's stage of the edge
    features and the triangle-to-edge table. -/
theorem upper_term (c : Dev nD) :
    V m c main_v86 = Cert.ReferenceIdeal.Read.val_main_v87 (F := Ideal) (m ((c : Thread nD τ).loc main_arg0)) (m ((c : Thread nD τ).loc main_arg2)) := by
  show StableHlo.after hostOps0 (fun b => m (c, b)) (Proc.devRef .tc main_v86) = _
  after_results_simp
  rfl

end Cert.KernelIdeal.Prelude

end
-- ==== Proof.lean ====
/-
  A simplicial message-passing layer over 1000000 edges with 64 features: three projections of edge-feature arrays
  (the identity term, the lower-Laplacian term through the nodes, the upper-Laplacian term through the triangles)
  by 64 x 64 weight matrices, summed and passed through the hyperbolic tangent.

  Both programs build the two Laplacian terms by the same host scatters and gathers of the same arguments
  (Proof/Prelude.lean). The kernel then runs the dense stage block by block, 8000 rows at a point of a 125-point
  grid, narrowing its operands (the identity on the extended reals) and accumulating each product from zero
  (Proof/Payload.lean, Proof/KernelArray.lean); the reference runs it as three whole-array products
  (Proof/RefLayer.lean). On the extended reals both are the one function of Proof/Spec.lean, entry by entry
  tanh ((sum_k e[r,k] w2[k,j] + sum_k x[r,k] w1[k,j]) + sum_k dy[r,k] w0[k,j]), with the same grouping of the three
  sums on both sides, so the equality uses no algebraic law and no finiteness of the inputs.
-/
import proofs.«126551_j20151986553302_1_alg».proof.Defs
import proofs.«126551_j20151986553302_1_alg».proof.Proof.Gen.Kernel
import proofs.«126551_j20151986553302_1_alg».proof.Proof.Gen.Kernel.Skeleton
import proofs.«126551_j20151986553302_1_alg».proof.Proof.Gen.Kernel.Launch
import proofs.«126551_j20151986553302_1_alg».proof.Proof.Gen.Kernel.Points
import proofs.«126551_j20151986553302_1_alg».proof.Proof.Gen.Kernel.Frame
import proofs.«126551_j20151986553302_1_alg».proof.Proof.Gen.KernelIdeal
import proofs.«126551_j20151986553302_1_alg».proof.Proof.Gen.KernelIdeal.Skeleton
import proofs.«126551_j20151986553302_1_alg».proof.Proof.Gen.KernelIdeal.Launch
import proofs.«126551_j20151986553302_1_alg».proof.Proof.Gen.KernelIdeal.Points
import proofs.«126551_j20151986553302_1_alg».proof.Proof.Gen.KernelIdeal.Frame
import proofs.«126551_j20151986553302_1_alg».proof.Proof.Gen.ReferenceIdeal
import proofs.«126551_j20151986553302_1_alg».proof.Proof.Gen.Pre_finite_inputs
import proofs.«126551_j20151986553302_1_alg».proof.Proof.Gen.KernelIdeal.Value
import proofs.«126551_j20151986553302_1_alg».proof.Proof.Gen.ReferenceIdeal.Run
import proofs.«126551_j20151986553302_1_alg».proof.Proof.Gen.ReferenceIdeal.Read
import proofs.«126551_j20151986553302_1_alg».proof.Proof.KernelArray
import proofs.«126551_j20151986553302_1_alg».proof.Proof.RefLayer
import proofs.«126551_j20151986553302_1_alg».proof.Proof.Prelude
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From agreeing arguments both programs end with the layer of the arguments and of the shared prelude's two
    arrays: the kernel's result array block by block, the reference's as its last stage. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  show Cert.ReferenceIdeal.Value.res_main_v92 m' c = Cert.KernelIdeal.ArrayValue.result m c
  rw [Cert.ReferenceIdeal.Read.val_main_v92_eq, Cert.ReferenceIdeal.Layer.result_eq_layer, h0, h1, h2, h3, h4, h5]
  unfold Cert.KernelIdeal.ArrayValue.result
  rw [Cert.KernelIdeal.Gen.V_main_arg0, Cert.KernelIdeal.Gen.V_main_arg3, Cert.KernelIdeal.Gen.V_main_arg4, Cert.KernelIdeal.Gen.V_main_arg5,
    Cert.KernelIdeal.Prelude.lower_term, Cert.KernelIdeal.Prelude.upper_term]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
